-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S1x64 : Shape := ⟨2, ![1, 64]⟩
abbrev S100000x64 : Shape := ⟨2, ![100000, 64]⟩
abbrev S4000x64 : Shape := ⟨2, ![4000, 64]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x64, .f32⟩
  | .hbm, ⟨65, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S4000x64, .f32⟩
  | .local _ .vmem, ⟨17, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.SageSpec.lean ====
/-
  One dense GraphSAGE layer over the extended reals, entry by entry. For a node r and an output feature j,
  with A the mean-aggregated neighbour features, X the node's own features, Wl and Wr the two weight
  matrices and β the bias row,
      pre r j = (∑ k, A r k · Wl k j) + β j + ∑ k, X r k · Wr k j.
  The hidden layer (128 output features) is max (pre r j) 0; the output layer (64 output features) is pre r j.
  Both the tiled kernel and the whole-array reference compute exactly these two functions, with the sums over the
  128 input features taken in the extended reals (where + and · are commutative and associative, so no
  finiteness is needed to compare the two sides: the sums are literally the same sums).
-/
import proofs.«178701_j38817914421629_1_alg».proof.KernelIdeal
import Idealize.ShloMosaic.PureOps.Ideal

noncomputable section

namespace Cert.Sage

open Idealize.ShloMosaic Cert.KernelIdeal

/-- Entry (r, k) of a node-feature array: node r, input feature k. -/
abbrev featAt (r : Fin 100000) (k : Fin 128) : S100000x128.Idx := fun a => match a with
  | ⟨0, _⟩ => ⟨r.val, r.isLt⟩
  | ⟨1, _⟩ => ⟨k.val, k.isLt⟩

/-- Entry (k, j) of a hidden-layer weight matrix: input feature k, output feature j. -/
abbrev wHidAt (k : Fin 128) (j : Fin 128) : S128x128.Idx := fun a => match a with
  | ⟨0, _⟩ => ⟨k.val, k.isLt⟩
  | ⟨1, _⟩ => ⟨j.val, j.isLt⟩

/-- Entry (k, j) of an output-layer weight matrix: input feature k, output feature j. -/
abbrev wOutAt (k : Fin 128) (j : Fin 64) : S128x64.Idx := fun a => match a with
  | ⟨0, _⟩ => ⟨k.val, k.isLt⟩
  | ⟨1, _⟩ => ⟨j.val, j.isLt⟩

/-- The hidden layer: relu of the neighbour term plus the bias plus the root term. -/
def hidden (A X : FVec Ideal S100000x128 .f32) (Wl Wr : FVec Ideal S128x128 .f32) (β : Fin 128 → EReal) :
    FVec Ideal S100000x128 .f32 := fun i =>
  max (((∑ k : Fin 128, A (featAt (i 0) k) * Wl (wHidAt k (i 1))) + β (i 1))
        + ∑ k : Fin 128, X (featAt (i 0) k) * Wr (wHidAt k (i 1)))
      (Ideal.ofBits .f32 0x00000000#32)

/-- The output layer: the neighbour term plus the bias plus the root term, no activation. -/
def output (A X : FVec Ideal S100000x128 .f32) (Wl Wr : FVec Ideal S128x64 .f32) (β : Fin 64 → EReal) :
    FVec Ideal S100000x64 .f32 := fun i =>
  ((∑ k : Fin 128, A (featAt (i 0) k) * Wl (wOutAt k (i 1))) + β (i 1))
    + ∑ k : Fin 128, X (featAt (i 0) k) * Wr (wOutAt k (i 1))

end Cert.Sage

end
-- ==== Proof.PayHidden.lean ====
/-
  What the hidden layer's kernel body stores, read at one entry of its 4000 × 128 block: with a the block of
  aggregated neighbour rows, x the block of the nodes' own rows, wl and wr the weight matrices and b the 1 × 128
  bias row, entry (r, j) of the stored block is
      max ((∑ k, a r k · wl k j) + b 0 j + ∑ k, x r k · wr k j) 0.
  The narrowing of the operands to bfloat16 is the identity on extended reals, each matrix product into a zero
  accumulator is its plain sum over the 128 input features, and the bias row is repeated down the rows.
-/
import proofs.«178701_j38817914421629_1_alg».proof.Proof.Gen.KernelIdeal.Skeleton
import proofs.«178701_j38817914421629_1_alg».proof.Proof.SageSpec
import Idealize.ShloMosaic.PureOps.Ideal.Laws
import Idealize.ShloMosaic.Lib.ValueIdx
import Idealize.ShloMosaic.Lib.Pipeline.Value

noncomputable section

namespace Cert.Sage

open Idealize.ShloMosaic Cert.KernelIdeal Cert.KernelIdeal.Gen

/-- Entry (r, k) of a block of 4000 rows of 128 features. -/
abbrev blkAt (r : Fin 4000) (k : Fin 128) : S4000x128.Idx := fun a => match a with
  | ⟨0, _⟩ => ⟨r.val, r.isLt⟩
  | ⟨1, _⟩ => ⟨k.val, k.isLt⟩

/-- Entry (0, j) of the hidden layer's 1 × 128 bias row. -/
abbrev biasHidAt (j : Fin 128) : S1x128.Idx := fun a => match a with
  | ⟨0, _⟩ => ⟨0, Nat.one_pos⟩
  | ⟨1, _⟩ => ⟨j.val, j.isLt⟩

/-! The product's operand indices at output entry i and contraction index q, axis by axis: the left operand is
    read at (i 0, q), the right at (q, i 1). -/

theorem lhsHid_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhsHid_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhsHid_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhsHid_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000 × 128 by 128 × 128 matrix product into a zero accumulator, at entry i: the sum over the 128 input
    features of the left operand's row entry times the right operand's column entry. -/
theorem matmulHid_apply {φ₁ φ₂ : FTy} (l : FVec Ideal S4000x128 φ₁) (r : FVec Ideal S128x128 φ₂) (i : S4000x128.Idx) :
    matmul dot_S4000x128_S128x128_S4000x128_1_0_0_1_n_n none l r (constant (F := Ideal) S4000x128 .f32 0x00000000#32) i
      = ∑ k : Fin 128, l (blkAt (i 0) k) * r (wHidAt k (i 1)) := by
  show FloatOps.matmul dot_S4000x128_S128x128_S4000x128_1_0_0_1_n_n none l r (constant (F := Ideal) S4000x128 .f32 0x00000000#32) i = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx i ((ValueIdx.contrEquiv1 dot_S4000x128_S128x128_S4000x128_1_0_0_1_n_n 128 rfl rfl).symm k) = blkAt (i 0) k := funext fun a => Fin.ext (by
    match a with
    | ⟨0, _⟩ => exact lhsHid_0 _ _
    | ⟨1, _⟩ => exact (lhsHid_1 _ _).trans hk)
  have er : dot_S4000x128_S128x128_S4000x128_1_0_0_1_n_n.rhsIdx i ((ValueIdx.contrEquiv1 dot_S4000x128_S128x128_S4000x128_1_0_0_1_n_n 128 rfl rfl).symm k) = wHidAt k (i 1) := funext fun a => Fin.ext (by
    match a with
    | ⟨0, _⟩ => exact (rhsHid_0 _ _).trans hk
    | ⟨1, _⟩ => exact rhsHid_1 _ _)
  rw [el, er]

/-- The bias row repeated down the 4000 rows of the block, at entry i: the bias of column i 1. -/
theorem biasHid_apply (b : Vec Ideal S1x128 .f32) (i : S4000x128.Idx) :
    broadcastTo S4000x128 (shapeCast S1x128 b shapeCasts_S1x128_S1x128) broadcasts_S1x128_S4000x128 i = b (biasHidAt (i 1)) := by
  rw [shapeCast_self]
  exact broadcastTo_apply b broadcasts_S1x128_S4000x128 i (biasHidAt (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- The stored block of the hidden layer's body at entry i. -/
theorem payHidden_apply (a x : Vec Ideal S4000x128 .f32) (wl wr : Vec Ideal S128x128 .f32) (b : Vec Ideal S1x128 .f32)
    (i : S4000x128.Idx) :
    k0_pay1 (F := Ideal) a x wl wr b i
      = max (((∑ k : Fin 128, a (blkAt (i 0) k) * wl (wHidAt k (i 1))) + b (biasHidAt (i 1)))
              + ∑ k : Fin 128, x (blkAt (i 0) k) * wr (wHidAt k (i 1)))
            (Ideal.ofBits .f32 0x00000000#32) := by
  unfold k0_pay1
  show max ((matmul dot_S4000x128_S128x128_S4000x128_1_0_0_1_n_n none (truncf .bf16 (shapeCast S4000x128 a shapeCasts_S4000x128_S4000x128) bitsLt_bf16_f32) (truncf .bf16 wl bitsLt_bf16_f32) (constant (F := Ideal) S4000x128 .f32 0x00000000#32) i
        + broadcastTo S4000x128 (shapeCast S1x128 b shapeCasts_S1x128_S1x128) broadcasts_S1x128_S4000x128 i)
        + matmul dot_S4000x128_S128x128_S4000x128_1_0_0_1_n_n none (truncf .bf16 x bitsLt_bf16_f32) (truncf .bf16 wr bitsLt_bf16_f32) (constant (F := Ideal) S4000x128 .f32 0x00000000#32) i)
      (Ideal.ofBits .f32 0x00000000#32) = _
  rw [matmulHid_apply, matmulHid_apply, biasHid_apply, shapeCast_self]
  rfl

/-- The stored entry as the hidden layer of whole arrays: if, at block entry j and array entry i, the block operands
    are the rows and columns of the whole arrays A, X, Wl, Wr and of the bias row B that entry i needs, the stored
    entry is the hidden layer of those arrays at i. -/
theorem hidden_of_block (A X : FVec Ideal S100000x128 .f32) (Wl Wr : FVec Ideal S128x128 .f32) (B : Vec Ideal S1x128 .f32)
    (a x : Vec Ideal S4000x128 .f32) (wl wr : Vec Ideal S128x128 .f32) (b : Vec Ideal S1x128 .f32)
    (j : S4000x128.Idx) (i : S100000x128.Idx)
    (ha : ∀ k, a (blkAt (j 0) k) = A (featAt (i 0) k)) (hx : ∀ k, x (blkAt (j 0) k) = X (featAt (i 0) k))
    (hwl : ∀ k, wl (wHidAt k (j 1)) = Wl (wHidAt k (i 1))) (hwr : ∀ k, wr (wHidAt k (j 1)) = Wr (wHidAt k (i 1)))
    (hb : b (biasHidAt (j 1)) = B (biasHidAt (i 1))) :
    k0_pay1 (F := Ideal) a x wl wr b j = hidden A X Wl Wr (fun q => B (biasHidAt q)) i := by
  rw [payHidden_apply]
  unfold hidden
  simp only [ha, hx, hwl, hwr, hb]

end Cert.Sage

end
-- ==== Proof.RegionHidden.lean ====
/-
  The hidden layer's call at the level of whole arrays. The call runs 25 grid points; point t is handed rows
  4000·t … 4000·t + 3999 of the aggregated array and of the node features, the two weight matrices and the bias
  row whole, and writes back rows 4000·t … 4000·t + 3999 of the result. Entry by entry what it writes back is
  `hidden` of the whole arrays, so, the 25 row blocks covering the result array, the array after the call IS
  `hidden` of the arrays the call found.
-/
import proofs.«178701_j38817914421629_1_alg».proof.Proof.Gen.KernelIdeal.Frame
import proofs.«178701_j38817914421629_1_alg».proof.Proof.PayHidden

set_option maxRecDepth 16384

noncomputable section

namespace Cert.Sage

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-- The six windows' block indices at grid point t: the two row-tiled inputs and the output sit at row block t,
    column block 0; the weights and the bias row are their arrays whole. -/
theorem idxHid : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point t's block of the aggregated array is its rows 4000·t … 4000·t + 3999. -/
theorem aggBlkHid (c : Dev nD) (t : Fin cfg0.N) (y : S4000x128.Idx) (i : S100000x128.Idx)
    (h0 : (i 0).val = t.val * 4000 + (y 0).val) (h1 : (i 1).val = (y 1).val) :
    (iblk0 V c 0 t : Vec Ideal S4000x128 .f32) y = (V c main_v22 : FVec Ideal S100000x128 .f32) i := by
  obtain ⟨e0, e1, -⟩ := idxHid t
  unfold iblk0
  rw [View.read_apply]
  show (V c main_v22 : FVec Ideal S100000x128 .f32) _ = _
  refine congrArg (V c main_v22 : FVec Ideal S100000x128 .f32) (funext fun a => Fin.ext ?_)
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- Point t's block of the node features is their rows 4000·t … 4000·t + 3999. -/
theorem featBlkHid (c : Dev nD) (t : Fin cfg0.N) (y : S4000x128.Idx) (i : S100000x128.Idx)
    (h0 : (i 0).val = t.val * 4000 + (y 0).val) (h1 : (i 1).val = (y 1).val) :
    (iblk0 V c 1 t : Vec Ideal S4000x128 .f32) y = (V c main_arg0 : FVec Ideal S100000x128 .f32) i := by
  obtain ⟨-, -, e0, e1, -⟩ := idxHid t
  unfold iblk0
  rw [View.read_apply]
  show (V c main_arg0 : FVec Ideal S100000x128 .f32) _ = _
  refine congrArg (V c main_arg0 : FVec Ideal S100000x128 .f32) (funext fun a => Fin.ext ?_)
  match a with
  | ⟨0, _⟩ => show win0_1.index t (0 : Fin 2) * 4000 + 1 * (y 0).val = (i 0).val; rw [e0, h0]; omega
  | ⟨1, _⟩ => show win0_1.index t (1 : Fin 2) * 128 + 1 * (y 1).val = (i 1).val; rw [e1, h1]; omega

/-- The neighbour weights' one block is the matrix whole. -/
theorem wlBlkHid (c : Dev nD) (t : Fin cfg0.N) (y i : S128x128.Idx)
    (h0 : (i 0).val = (y 0).val) (h1 : (i 1).val = (y 1).val) :
    (iblk0 V c 2 t : Vec Ideal S128x128 .f32) y = (V c main_arg2 : FVec Ideal S128x128 .f32) i := by
  obtain ⟨-, -, -, -, e0, e1, -⟩ := idxHid t
  unfold iblk0
  rw [View.read_apply]
  show (V c main_arg2 : FVec Ideal S128x128 .f32) _ = _
  refine congrArg (V c main_arg2 : FVec Ideal S128x128 .f32) (funext fun a => Fin.ext ?_)
  match a with
  | ⟨0, _⟩ => show win0_2.index t (0 : Fin 2) * 128 + 1 * (y 0).val = (i 0).val; rw [e0, h0]; omega
  | ⟨1, _⟩ => show win0_2.index t (1 : Fin 2) * 128 + 1 * (y 1).val = (i 1).val; rw [e1, h1]; omega

/-- The bias row's one block is the row whole. -/
theorem biasBlkHid (c : Dev nD) (t : Fin cfg0.N) (y i : S1x128.Idx)
    (h0 : (i 0).val = (y 0).val) (h1 : (i 1).val = (y 1).val) :
    (iblk0 V c 3 t : Vec Ideal S1x128 .f32) y = (V c main_v23 : FVec Ideal S1x128 .f32) i := by
  obtain ⟨-, -, -, -, -, -, e0, e1, -⟩ := idxHid t
  unfold iblk0
  rw [View.read_apply]
  show (V c main_v23 : FVec Ideal S1x128 .f32) _ = _
  refine congrArg (V c main_v23 : FVec Ideal S1x128 .f32) (funext fun a => Fin.ext ?_)
  match a with
  | ⟨0, _⟩ => show win0_3.index t (0 : Fin 2) * 1 + 1 * (y 0).val = (i 0).val; rw [e0, h0]; omega
  | ⟨1, _⟩ => show win0_3.index t (1 : Fin 2) * 128 + 1 * (y 1).val = (i 1).val; rw [e1, h1]; omega

/-- The root weights' one block is the matrix whole. -/
theorem wrBlkHid (c : Dev nD) (t : Fin cfg0.N) (y i : S128x128.Idx)
    (h0 : (i 0).val = (y 0).val) (h1 : (i 1).val = (y 1).val) :
    (iblk0 V c 4 t : Vec Ideal S128x128 .f32) y = (V c main_arg4 : FVec Ideal S128x128 .f32) i := by
  obtain ⟨-, -, -, -, -, -, -, -, e0, e1, -⟩ := idxHid t
  unfold iblk0
  rw [View.read_apply]
  show (V c main_arg4 : FVec Ideal S128x128 .f32) _ = _
  refine congrArg (V c main_arg4 : FVec Ideal S128x128 .f32) (funext fun a => Fin.ext ?_)
  match a with
  | ⟨0, _⟩ => show win0_4.index t (0 : Fin 2) * 128 + 1 * (y 0).val = (i 0).val; rw [e0, h0]; omega
  | ⟨1, _⟩ => show win0_4.index t (1 : Fin 2) * 128 + 1 * (y 1).val = (i 1).val; rw [e1, h1]; omega

/-- The hidden layer of the arrays the call finds. -/
abbrev hiddenOf (c : Dev nD) : FVec Ideal S100000x128 .f32 :=
  hidden (V c main_v22) (V c main_arg0) (V c main_arg2) (V c main_arg4)
    (fun q => (V c main_v23 : Vec Ideal S1x128 .f32) (biasHidAt q))

/-- What point t writes back is block t of the hidden layer of the arrays the call finds. -/
theorem flushedHid (c : Dev nD) (t : Fin cfg0.N) :
    (dat0 V c).flushed 5 t = ((cfg0.win 5).blk t).view.read (Elt Ideal) (hiddenOf V c) := by
  show (cfg0.win 5).cut (grid0.coords t) ((dat0 V c).after 5 t) = _
  rw [after0_5]
  unfold out0_5
  rw [View.canon_unit_zero origin2]
  simp only [View.ld_unit_zero (S := S4000x128) origin2, View.ld_unit_zero (S := S128x128) origin2, View.ld_unit_zero (S := S1x128) origin2]
  obtain ⟨-, -, -, -, -, -, -, -, -, -, e0, e1⟩ := idxHid t
  funext j
  show k0_pay1 (F := Ideal) (iblk0 V c 0 t) (iblk0 V c 1 t) (iblk0 V c 2 t) (iblk0 V c 4 t) (iblk0 V c 3 t) j
    = hiddenOf V c (((cfg0.win 5).blk t).view.emb j)
  refine hidden_of_block (V c main_v22) (V c main_arg0) (V c main_arg2) (V c main_arg4) (V c main_v23) _ _ _ _ _ j _
    (fun k => ?_) (fun k => ?_) (fun k => ?_) (fun k => ?_) ?_
  · exact aggBlkHid V c t _ _ (by show win0_5.index t (0 : Fin 2) * 4000 + 1 * (j 0).val = t.val * 4000 + (j 0).val; rw [e0]; omega) rfl
  · exact featBlkHid V c t _ _ (by show win0_5.index t (0 : Fin 2) * 4000 + 1 * (j 0).val = t.val * 4000 + (j 0).val; rw [e0]; omega) rfl
  · exact wlBlkHid V c t _ _ rfl (by show win0_5.index t (1 : Fin 2) * 128 + 1 * (j 1).val = (j 1).val; rw [e1]; omega)
  · exact wrBlkHid V c t _ _ rfl (by show win0_5.index t (1 : Fin 2) * 128 + 1 * (j 1).val = (j 1).val; rw [e1]; omega)
  · exact biasBlkHid V c t _ _ rfl (by show win0_5.index t (1 : Fin 2) * 128 + 1 * (j 1).val = (j 1).val; rw [e1]; omega)

/-- An entry of the result array lies in point t's block iff each coordinate is in the block's range. -/
theorem memBlkHid (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v24).slice (win0_5.rect t)).set ↔ _
  rw [View.set_slice_whole, Rect.mem_set_unit]
  exact Iff.rfl

/-- The result array after the call: the hidden layer of the arrays the call found (row r is written by point r / 4000). -/
theorem finalHid (c : Dev nD) : (dat0 V c).arrAt 5 cfg0.N = hiddenOf V c :=
  (dat0 V c).arrAt_eq_of_cover 5 (hiddenOf V c) (fun t _ => flushedHid V c t) fun i => by
    have hi0 : (i 0).val < 100000 := (i 0).isLt
    have hi1 : (i 1).val < 128 := (i 1).isLt
    have hq : (i 0).val / 4000 < cfg0.N := by rw [show cfg0.N = 25 from N_0]; omega
    obtain ⟨-, -, -, -, -, -, -, -, -, -, e0, e1⟩ := idxHid ⟨(i 0).val / 4000, hq⟩
    refine ⟨⟨(i 0).val / 4000, hq⟩, flush0_5 _, ?_⟩
    rw [memBlkHid]
    intro a
    match a with
    | ⟨0, _⟩ =>
      show win0_5.index ⟨(i 0).val / 4000, hq⟩ (0 : Fin 2) * 4000 ≤ (i 0).val ∧ (i 0).val < win0_5.index ⟨(i 0).val / 4000, hq⟩ (0 : Fin 2) * 4000 + 4000
      rw [e0]; show (i 0).val / 4000 * 4000 ≤ (i 0).val ∧ (i 0).val < (i 0).val / 4000 * 4000 + 4000; omega
    | ⟨1, _⟩ =>
      show win0_5.index ⟨(i 0).val / 4000, hq⟩ (1 : Fin 2) * 128 ≤ (i 1).val ∧ (i 1).val < win0_5.index ⟨(i 0).val / 4000, hq⟩ (1 : Fin 2) * 128 + 128
      rw [e1]; omega

end Cert.Sage

end
-- ==== Proof.PayOutput.lean ====
/-
  What the output layer's kernel body stores, read at one entry of its 4000 × 64 block: with a the block of
  aggregated neighbour rows, x the block of hidden rows, wl and wr the 128 × 64 weight matrices and b the 1 × 64
  bias row, entry (r, j) of the stored block is
      (∑ k, a r k · wl k j) + b 0 j + ∑ k, x r k · wr k j.
  As in the hidden layer the bfloat16 narrowing is the identity on extended reals and each product into a zero
  accumulator is its plain sum over the 128 input features; there is no activation.
-/
import proofs.«178701_j38817914421629_1_alg».proof.Proof.Gen.KernelIdeal.Skeleton
import proofs.«178701_j38817914421629_1_alg».proof.Proof.PayHidden

noncomputable section

namespace Cert.Sage

open Idealize.ShloMosaic Cert.KernelIdeal Cert.KernelIdeal.Gen

/-- Entry (r, j) of a block of 4000 rows of 64 output features. -/
abbrev blkOutAt (r : Fin 4000) (j : Fin 64) : S4000x64.Idx := fun a => match a with
  | ⟨0, _⟩ => ⟨r.val, r.isLt⟩
  | ⟨1, _⟩ => ⟨j.val, j.isLt⟩

/-- Entry (0, j) of the output layer's 1 × 64 bias row. -/
abbrev biasOutAt (j : Fin 64) : S1x64.Idx := fun a => match a with
  | ⟨0, _⟩ => ⟨0, Nat.one_pos⟩
  | ⟨1, _⟩ => ⟨j.val, j.isLt⟩

/-! The product's operand indices at output entry i and contraction index q, axis by axis: the left operand is
    read at (i 0, q), the right at (q, i 1). -/

theorem lhsOut_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhsOut_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhsOut_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhsOut_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- A 4000 × 128 by 128 × 64 matrix product into a zero accumulator, at entry i: the sum over the 128 input
    features of the left operand's row entry times the right operand's column entry. -/
theorem matmulOut_apply {φ₁ φ₂ : FTy} (l : FVec Ideal S4000x128 φ₁) (r : FVec Ideal S128x64 φ₂) (i : S4000x64.Idx) :
    matmul dot_S4000x128_S128x64_S4000x64_1_0_0_1_n_n none l r (constant (F := Ideal) S4000x64 .f32 0x00000000#32) i
      = ∑ k : Fin 128, l (blkAt (i 0) k) * r (wOutAt k (i 1)) := by
  show FloatOps.matmul dot_S4000x128_S128x64_S4000x64_1_0_0_1_n_n none l r (constant (F := Ideal) S4000x64 .f32 0x00000000#32) i = _
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx i ((ValueIdx.contrEquiv1 dot_S4000x128_S128x64_S4000x64_1_0_0_1_n_n 128 rfl rfl).symm k) = blkAt (i 0) k := funext fun a => Fin.ext (by
    match a with
    | ⟨0, _⟩ => exact lhsOut_0 _ _
    | ⟨1, _⟩ => exact (lhsOut_1 _ _).trans hk)
  have er : dot_S4000x128_S128x64_S4000x64_1_0_0_1_n_n.rhsIdx i ((ValueIdx.contrEquiv1 dot_S4000x128_S128x64_S4000x64_1_0_0_1_n_n 128 rfl rfl).symm k) = wOutAt k (i 1) := funext fun a => Fin.ext (by
    match a with
    | ⟨0, _⟩ => exact (rhsOut_0 _ _).trans hk
    | ⟨1, _⟩ => exact rhsOut_1 _ _)
  rw [el, er]

/-- The bias row repeated down the 4000 rows of the block, at entry i: the bias of column i 1. -/
theorem biasOut_apply (b : Vec Ideal S1x64 .f32) (i : S4000x64.Idx) :
    broadcastTo S4000x64 (shapeCast S1x64 b shapeCasts_S1x64_S1x64) broadcasts_S1x64_S4000x64 i = b (biasOutAt (i 1)) := by
  rw [shapeCast_self]
  exact broadcastTo_apply b broadcasts_S1x64_S4000x64 i (biasOutAt (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The stored block of the output layer's body at entry i. -/
theorem payOutput_apply (a x : Vec Ideal S4000x128 .f32) (wl wr : Vec Ideal S128x64 .f32) (b : Vec Ideal S1x64 .f32)
    (i : S4000x64.Idx) :
    k1_pay1 (F := Ideal) a x wl wr b i
      = ((∑ k : Fin 128, a (blkAt (i 0) k) * wl (wOutAt k (i 1))) + b (biasOutAt (i 1)))
          + ∑ k : Fin 128, x (blkAt (i 0) k) * wr (wOutAt k (i 1)) := by
  unfold k1_pay1
  show (matmul dot_S4000x128_S128x64_S4000x64_1_0_0_1_n_n none (truncf .bf16 (shapeCast S4000x128 a shapeCasts_S4000x128_S4000x128) bitsLt_bf16_f32) (truncf .bf16 wl bitsLt_bf16_f32) (constant (F := Ideal) S4000x64 .f32 0x00000000#32) i
        + broadcastTo S4000x64 (shapeCast S1x64 b shapeCasts_S1x64_S1x64) broadcasts_S1x64_S4000x64 i)
        + matmul dot_S4000x128_S128x64_S4000x64_1_0_0_1_n_n none (truncf .bf16 (shapeCast S4000x128 x shapeCasts_S4000x128_S4000x128) bitsLt_bf16_f32) (truncf .bf16 wr bitsLt_bf16_f32) (constant (F := Ideal) S4000x64 .f32 0x00000000#32) i = _
  rw [matmulOut_apply, matmulOut_apply, biasOut_apply, shapeCast_self, shapeCast_self]
  rfl

/-- The stored entry as the output layer of whole arrays: if, at block entry j and array entry i, the block operands
    are the rows and columns of the whole arrays A, X, Wl, Wr and of the bias row B that entry i needs, the stored
    entry is the output layer of those arrays at i. -/
theorem output_of_block (A X : FVec Ideal S100000x128 .f32) (Wl Wr : FVec Ideal S128x64 .f32) (B : Vec Ideal S1x64 .f32)
    (a x : Vec Ideal S4000x128 .f32) (wl wr : Vec Ideal S128x64 .f32) (b : Vec Ideal S1x64 .f32)
    (j : S4000x64.Idx) (i : S100000x64.Idx)
    (ha : ∀ k, a (blkAt (j 0) k) = A (featAt (i 0) k)) (hx : ∀ k, x (blkAt (j 0) k) = X (featAt (i 0) k))
    (hwl : ∀ k, wl (wOutAt k (j 1)) = Wl (wOutAt k (i 1))) (hwr : ∀ k, wr (wOutAt k (j 1)) = Wr (wOutAt k (i 1)))
    (hb : b (biasOutAt (j 1)) = B (biasOutAt (i 1))) :
    k1_pay1 (F := Ideal) a x wl wr b j = output A X Wl Wr (fun q => B (biasOutAt q)) i := by
  rw [payOutput_apply]
  unfold output
  simp only [ha, hx, hwl, hwr, hb]

end Cert.Sage

end
-- ==== Proof.RegionOutput.lean ====
/-
  The output layer's call at the level of whole arrays. The call runs 25 grid points; point t is handed rows
  4000·t … 4000·t + 3999 of the second aggregated array and of the hidden features, the two 128 × 64 weight
  matrices and the 1 × 64 bias row whole, and writes back rows 4000·t … 4000·t + 3999 of the 100000 × 64 result.
  Entry by entry what it writes back is `output` of the whole arrays, so, the 25 row blocks covering the result
  array, the array after the call IS `output` of the arrays the call found.
-/
import proofs.«178701_j38817914421629_1_alg».proof.Proof.Gen.KernelIdeal.Frame
import proofs.«178701_j38817914421629_1_alg».proof.Proof.PayOutput

set_option maxRecDepth 16384

noncomputable section

namespace Cert.Sage

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem originOut : (![0, 0] : Fin 2 → Nat) = fun _ => 0 := funext fun a => by fin_cases a <;> rfl

/-- The six windows' block indices at grid point t: the two row-tiled inputs and the output sit at row block t,
    column block 0; the weights and the bias row are their arrays whole. -/
theorem idxOut : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point t's block of the second aggregated array is its rows 4000·t … 4000·t + 3999. -/
theorem aggBlkOut (c : Dev nD) (t : Fin cfg1.N) (y : S4000x128.Idx) (i : S100000x128.Idx)
    (h0 : (i 0).val = t.val * 4000 + (y 0).val) (h1 : (i 1).val = (y 1).val) :
    (iblk1 V c 0 t : Vec Ideal S4000x128 .f32) y = (V c main_v43 : FVec Ideal S100000x128 .f32) i := by
  obtain ⟨e0, e1, -⟩ := idxOut t
  unfold iblk1
  rw [View.read_apply]
  show (V c main_v43 : FVec Ideal S100000x128 .f32) _ = _
  refine congrArg (V c main_v43 : FVec Ideal S100000x128 .f32) (funext fun a => Fin.ext ?_)
  match a with
  | ⟨0, _⟩ => show win1_0.index t (0 : Fin 2) * 4000 + 1 * (y 0).val = (i 0).val; rw [e0, h0]; omega
  | ⟨1, _⟩ => show win1_0.index t (1 : Fin 2) * 128 + 1 * (y 1).val = (i 1).val; rw [e1, h1]; omega

/-- Point t's block of the hidden features is their rows 4000·t … 4000·t + 3999. -/
theorem featBlkOut (c : Dev nD) (t : Fin cfg1.N) (y : S4000x128.Idx) (i : S100000x128.Idx)
    (h0 : (i 0).val = t.val * 4000 + (y 0).val) (h1 : (i 1).val = (y 1).val) :
    (iblk1 V c 1 t : Vec Ideal S4000x128 .f32) y = (V c main_v24 : FVec Ideal S100000x128 .f32) i := by
  obtain ⟨-, -, e0, e1, -⟩ := idxOut t
  unfold iblk1
  rw [View.read_apply]
  show (V c main_v24 : FVec Ideal S100000x128 .f32) _ = _
  refine congrArg (V c main_v24 : FVec Ideal S100000x128 .f32) (funext fun a => Fin.ext ?_)
  match a with
  | ⟨0, _⟩ => show win1_1.index t (0 : Fin 2) * 4000 + 1 * (y 0).val = (i 0).val; rw [e0, h0]; omega
  | ⟨1, _⟩ => show win1_1.index t (1 : Fin 2) * 128 + 1 * (y 1).val = (i 1).val; rw [e1, h1]; omega

/-- The neighbour weights' one block is the matrix whole. -/
theorem wlBlkOut (c : Dev nD) (t : Fin cfg1.N) (y i : S128x64.Idx)
    (h0 : (i 0).val = (y 0).val) (h1 : (i 1).val = (y 1).val) :
    (iblk1 V c 2 t : Vec Ideal S128x64 .f32) y = (V c main_arg5 : FVec Ideal S128x64 .f32) i := by
  obtain ⟨-, -, -, -, e0, e1, -⟩ := idxOut t
  unfold iblk1
  rw [View.read_apply]
  show (V c main_arg5 : FVec Ideal S128x64 .f32) _ = _
  refine congrArg (V c main_arg5 : FVec Ideal S128x64 .f32) (funext fun a => Fin.ext ?_)
  match a with
  | ⟨0, _⟩ => show win1_2.index t (0 : Fin 2) * 128 + 1 * (y 0).val = (i 0).val; rw [e0, h0]; omega
  | ⟨1, _⟩ => show win1_2.index t (1 : Fin 2) * 64 + 1 * (y 1).val = (i 1).val; rw [e1, h1]; omega

/-- The bias row's one block is the row whole. -/
theorem biasBlkOut (c : Dev nD) (t : Fin cfg1.N) (y i : S1x64.Idx)
    (h0 : (i 0).val = (y 0).val) (h1 : (i 1).val = (y 1).val) :
    (iblk1 V c 3 t : Vec Ideal S1x64 .f32) y = (V c main_v44 : FVec Ideal S1x64 .f32) i := by
  obtain ⟨-, -, -, -, -, -, e0, e1, -⟩ := idxOut t
  unfold iblk1
  rw [View.read_apply]
  show (V c main_v44 : FVec Ideal S1x64 .f32) _ = _
  refine congrArg (V c main_v44 : FVec Ideal S1x64 .f32) (funext fun a => Fin.ext ?_)
  match a with
  | ⟨0, _⟩ => show win1_3.index t (0 : Fin 2) * 1 + 1 * (y 0).val = (i 0).val; rw [e0, h0]; omega
  | ⟨1, _⟩ => show win1_3.index t (1 : Fin 2) * 64 + 1 * (y 1).val = (i 1).val; rw [e1, h1]; omega

/-- The root weights' one block is the matrix whole. -/
theorem wrBlkOut (c : Dev nD) (t : Fin cfg1.N) (y i : S128x64.Idx)
    (h0 : (i 0).val = (y 0).val) (h1 : (i 1).val = (y 1).val) :
    (iblk1 V c 4 t : Vec Ideal S128x64 .f32) y = (V c main_arg7 : FVec Ideal S128x64 .f32) i := by
  obtain ⟨-, -, -, -, -, -, -, -, e0, e1, -⟩ := idxOut t
  unfold iblk1
  rw [View.read_apply]
  show (V c main_arg7 : FVec Ideal S128x64 .f32) _ = _
  refine congrArg (V c main_arg7 : FVec Ideal S128x64 .f32) (funext fun a => Fin.ext ?_)
  match a with
  | ⟨0, _⟩ => show win1_4.index t (0 : Fin 2) * 128 + 1 * (y 0).val = (i 0).val; rw [e0, h0]; omega
  | ⟨1, _⟩ => show win1_4.index t (1 : Fin 2) * 64 + 1 * (y 1).val = (i 1).val; rw [e1, h1]; omega

/-- The output layer of the arrays the call finds. -/
abbrev outputOf (c : Dev nD) : FVec Ideal S100000x64 .f32 :=
  output (V c main_v43) (V c main_v24) (V c main_arg5) (V c main_arg7)
    (fun q => (V c main_v44 : Vec Ideal S1x64 .f32) (biasOutAt q))

/-- What point t writes back is block t of the output layer of the arrays the call finds. -/
theorem flushedOut (c : Dev nD) (t : Fin cfg1.N) :
    (dat1 V c).flushed 5 t = ((cfg1.win 5).blk t).view.read (Elt Ideal) (outputOf V c) := by
  show (cfg1.win 5).cut (grid1.coords t) ((dat1 V c).after 5 t) = _
  rw [after1_5]
  unfold out1_5
  rw [View.canon_unit_zero originOut]
  simp only [View.ld_unit_zero (S := S4000x128) originOut, View.ld_unit_zero (S := S128x64) originOut, View.ld_unit_zero (S := S1x64) originOut]
  obtain ⟨-, -, -, -, -, -, -, -, -, -, e0, e1⟩ := idxOut t
  funext j
  show k1_pay1 (F := Ideal) (iblk1 V c 0 t) (iblk1 V c 1 t) (iblk1 V c 2 t) (iblk1 V c 4 t) (iblk1 V c 3 t) j
    = outputOf V c (((cfg1.win 5).blk t).view.emb j)
  refine output_of_block (V c main_v43) (V c main_v24) (V c main_arg5) (V c main_arg7) (V c main_v44) _ _ _ _ _ j _
    (fun k => ?_) (fun k => ?_) (fun k => ?_) (fun k => ?_) ?_
  · exact aggBlkOut V c t _ _ (by show win1_5.index t (0 : Fin 2) * 4000 + 1 * (j 0).val = t.val * 4000 + (j 0).val; rw [e0]; omega) rfl
  · exact featBlkOut V c t _ _ (by show win1_5.index t (0 : Fin 2) * 4000 + 1 * (j 0).val = t.val * 4000 + (j 0).val; rw [e0]; omega) rfl
  · exact wlBlkOut V c t _ _ rfl (by show win1_5.index t (1 : Fin 2) * 64 + 1 * (j 1).val = (j 1).val; rw [e1]; omega)
  · exact wrBlkOut V c t _ _ rfl (by show win1_5.index t (1 : Fin 2) * 64 + 1 * (j 1).val = (j 1).val; rw [e1]; omega)
  · exact biasBlkOut V c t _ _ rfl (by show win1_5.index t (1 : Fin 2) * 64 + 1 * (j 1).val = (j 1).val; rw [e1]; omega)

/-- An entry of the result array lies in point t's block iff each coordinate is in the block's range. -/
theorem memBlkOut (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v45).slice (win1_5.rect t)).set ↔ _
  rw [View.set_slice_whole, Rect.mem_set_unit]
  exact Iff.rfl

/-- The result array after the call: the output layer of the arrays the call found (row r is written by point r / 4000). -/
theorem finalOut (c : Dev nD) : (dat1 V c).arrAt 5 cfg1.N = outputOf V c :=
  (dat1 V c).arrAt_eq_of_cover 5 (outputOf V c) (fun t _ => flushedOut V c t) fun i => by
    have hi0 : (i 0).val < 100000 := (i 0).isLt
    have hi1 : (i 1).val < 64 := (i 1).isLt
    have hq : (i 0).val / 4000 < cfg1.N := by rw [show cfg1.N = 25 from N_1]; omega
    obtain ⟨-, -, -, -, -, -, -, -, -, -, e0, e1⟩ := idxOut ⟨(i 0).val / 4000, hq⟩
    refine ⟨⟨(i 0).val / 4000, hq⟩, flush1_5 _, ?_⟩
    rw [memBlkOut]
    intro a
    match a with
    | ⟨0, _⟩ =>
      show win1_5.index ⟨(i 0).val / 4000, hq⟩ (0 : Fin 2) * 4000 ≤ (i 0).val ∧ (i 0).val < win1_5.index ⟨(i 0).val / 4000, hq⟩ (0 : Fin 2) * 4000 + 4000
      rw [e0]; show (i 0).val / 4000 * 4000 ≤ (i 0).val ∧ (i 0).val < (i 0).val / 4000 * 4000 + 4000; omega
    | ⟨1, _⟩ =>
      show win1_5.index ⟨(i 0).val / 4000, hq⟩ (1 : Fin 2) * 64 ≤ (i 1).val ∧ (i 1).val < win1_5.index ⟨(i 0).val / 4000, hq⟩ (1 : Fin 2) * 64 + 64
      rw [e1]; omega

end Cert.Sage

end
-- ==== Proof.RefLayers.lean ====
/-
  The reference, stage by stage, is the two dense layers over ONE neighbour-mean function. The reference computes,
  for node features h and an edge list e, the mean over incoming edges of the source rows of h (a gather along the
  edges, a sum into the destination rows, divided by the larger of the in-degree and one); it does so twice, once on
  the input features and once on the hidden features, with the same operations. That function is never opened here:
  it is named `neighbourMean` and carried whole. What is read entry by entry is only what follows it in each layer:
  the two matrix products as sums over the 128 input features, the bias repeated down the rows, and in the hidden
  layer the maximum with zero.
-/
import proofs.«178701_j38817914421629_1_alg».proof.Proof.Gen.ReferenceIdeal.Read
import proofs.«178701_j38817914421629_1_alg».proof.Proof.SageSpec

noncomputable section

namespace Cert.Sage

open Idealize.ShloMosaic Cert.ReferenceIdeal Cert.ReferenceIdeal.Read

/-- Entry q of a bias vector of 128 features. -/
abbrev vec128At (q : Fin 128) : S128.Idx := fun a => match a with
  | ⟨0, _⟩ => ⟨q.val, q.isLt⟩

/-- Entry q of a bias vector of 64 features. -/
abbrev vec64At (q : Fin 64) : S64.Idx := fun a => match a with
  | ⟨0, _⟩ => ⟨q.val, q.isLt⟩

/-- The mean of each node's in-neighbours' rows of h along the edge list e (0 where a node has no in-neighbour):
    the reference's own chain of host operations from the features and the edge list to the aggregated array, as
    one function. -/
def neighbourMean (h : (⟨S100000x128, .f32⟩ : BufTy).Contents (Elt Ideal)) (e : (⟨S2x1600000, .i32⟩ : BufTy).Contents (Elt Ideal)) : (⟨S100000x128, .f32⟩ : BufTy).Contents (Elt Ideal) :=
  val_main_v22 (F := Ideal) h e

/-! The reference's operand indices are the specification's. -/

theorem lidx23_eq (i : S100000x128.Idx) (k : Fin 128) : lidx_main_v23 i k = featAt (i 0) k :=
  funext fun a => Fin.ext (by match a with | ⟨0, _⟩ => rfl | ⟨1, _⟩ => rfl)
theorem ridx23_eq (i : S100000x128.Idx) (k : Fin 128) : ridx_main_v23 i k = wHidAt k (i 1) :=
  funext fun a => Fin.ext (by match a with | ⟨0, _⟩ => rfl | ⟨1, _⟩ => rfl)
theorem lidx27_eq (i : S100000x128.Idx) (k : Fin 128) : lidx_main_v27 i k = featAt (i 0) k :=
  funext fun a => Fin.ext (by match a with | ⟨0, _⟩ => rfl | ⟨1, _⟩ => rfl)
theorem ridx27_eq (i : S100000x128.Idx) (k : Fin 128) : ridx_main_v27 i k = wHidAt k (i 1) :=
  funext fun a => Fin.ext (by match a with | ⟨0, _⟩ => rfl | ⟨1, _⟩ => rfl)
theorem bias25_eq (i : S100000x128.Idx) : idx_main_v24 (idx_main_v25 i) = vec128At (i 1) :=
  funext fun a => Fin.ext (by match a with | ⟨0, _⟩ => rfl)
theorem lidx49_eq (i : S100000x64.Idx) (k : Fin 128) : lidx_main_v49 i k = featAt (i 0) k :=
  funext fun a => Fin.ext (by match a with | ⟨0, _⟩ => rfl | ⟨1, _⟩ => rfl)
theorem ridx49_eq (i : S100000x64.Idx) (k : Fin 128) : ridx_main_v49 i k = wOutAt k (i 1) :=
  funext fun a => Fin.ext (by match a with | ⟨0, _⟩ => rfl | ⟨1, _⟩ => rfl)
theorem lidx53_eq (i : S100000x64.Idx) (k : Fin 128) : lidx_main_v53 i k = featAt (i 0) k :=
  funext fun a => Fin.ext (by match a with | ⟨0, _⟩ => rfl | ⟨1, _⟩ => rfl)
theorem ridx53_eq (i : S100000x64.Idx) (k : Fin 128) : ridx_main_v53 i k = wOutAt k (i 1) :=
  funext fun a => Fin.ext (by match a with | ⟨0, _⟩ => rfl | ⟨1, _⟩ => rfl)
theorem bias51_eq (i : S100000x64.Idx) : idx_main_v50 (idx_main_v51 i) = vec64At (i 1) :=
  funext fun a => Fin.ext (by match a with | ⟨0, _⟩ => rfl)

/-- The reference's hidden features are the hidden layer over the neighbour mean of the input features. -/
theorem hidden_ref (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v29 (F := Ideal) x0 x1 x2 x3 x4 = hidden (neighbourMean x0 x1) x0 x2 x4 (fun q => x3 (vec128At q)) := by
  funext i
  rw [val_main_v29_apply, val_main_v28_apply, val_main_v26_apply, val_main_v23_apply, val_main_v25_apply,
    val_main_v24_apply, val_main_v27_apply, val_main_call0_v0_apply, val_main_call0_cst_apply]
  simp only [lidx23_eq, ridx23_eq, lidx27_eq, ridx27_eq, bias25_eq]
  rfl

/-- The reference's second aggregation is the same neighbour mean, taken of the hidden features. -/
theorem mean_hidden_ref (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v48 (F := Ideal) x0 x1 x2 x3 x4 = neighbourMean (val_main_v29 (F := Ideal) x0 x1 x2 x3 x4) x1 := rfl

/-- The reference's result is the output layer over its second aggregation and its hidden features. -/
theorem output_ref (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (x5 : (⟨S128x64, .f32⟩ : BufTy).Contents (Elt Ideal)) (x6 : (⟨S64, .f32⟩ : BufTy).Contents (Elt Ideal))
    (x7 : (⟨S128x64, .f32⟩ : BufTy).Contents (Elt Ideal)) :
    val_main_v54 (F := Ideal) x0 x1 x2 x3 x4 x5 x6 x7
      = output (val_main_v48 (F := Ideal) x0 x1 x2 x3 x4) (val_main_v29 (F := Ideal) x0 x1 x2 x3 x4) x5 x7 (fun q => x6 (vec64At q)) := by
  funext i
  rw [val_main_v54_apply, val_main_v52_apply, val_main_v49_apply, val_main_v51_apply, val_main_v50_apply, val_main_v53_apply]
  simp only [lidx49_eq, ridx49_eq, lidx53_eq, ridx53_eq, bias51_eq]
  rfl

/-- The network of the specification: the output layer over the neighbour mean of the hidden layer, the hidden
    layer over the neighbour mean of the input features. -/
def network (x : (⟨S100000x128, .f32⟩ : BufTy).Contents (Elt Ideal)) (e : (⟨S2x1600000, .i32⟩ : BufTy).Contents (Elt Ideal)) (w1l : (⟨S128x128, .f32⟩ : BufTy).Contents (Elt Ideal)) (b1 : (⟨S128, .f32⟩ : BufTy).Contents (Elt Ideal))
    (w1r : (⟨S128x128, .f32⟩ : BufTy).Contents (Elt Ideal)) (w2l : (⟨S128x64, .f32⟩ : BufTy).Contents (Elt Ideal)) (b2 : (⟨S64, .f32⟩ : BufTy).Contents (Elt Ideal)) (w2r : (⟨S128x64, .f32⟩ : BufTy).Contents (Elt Ideal)) :
    (⟨S100000x64, .f32⟩ : BufTy).Contents (Elt Ideal) :=
  output (neighbourMean (hidden (neighbourMean x e) x w1l w1r (fun q => b1 (vec128At q))) e)
    (hidden (neighbourMean x e) x w1l w1r (fun q => b1 (vec128At q))) w2l w2r (fun q => b2 (vec64At q))

/-- The reference computes the network. -/
theorem reference_network (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (x5 : (⟨S128x64, .f32⟩ : BufTy).Contents (Elt Ideal)) (x6 : (⟨S64, .f32⟩ : BufTy).Contents (Elt Ideal))
    (x7 : (⟨S128x64, .f32⟩ : BufTy).Contents (Elt Ideal)) :
    val_main_v54 (F := Ideal) x0 x1 x2 x3 x4 x5 x6 x7 = network x0 x1 x2 x3 x4 x5 x6 x7 := by
  rw [output_ref, mean_hidden_ref, hidden_ref]
  rfl

end Cert.Sage

end
-- ==== Proof.KernelNetwork.lean ====
/-
  The kernel's program computes the network. Its @main is: host operations that form the neighbour mean of the
  input features and reshape the first bias to a row; the hidden layer's call; host operations that form the
  neighbour mean of the hidden features (from the same edge rows, which the first stretch extracted and no later
  step overwrites) and reshape the second bias; the output layer's call. Read stretch by stretch: each stretch's
  aggregated array is the reference's own neighbour-mean function of the features it gathers from, each call
  leaves its layer of the arrays it found, and the arguments reach both calls as launched. Composed, the result
  array ends at `network` of the arguments.
-/
import proofs.«178701_j38817914421629_1_alg».proof.Proof.RegionHidden
import proofs.«178701_j38817914421629_1_alg».proof.Proof.RegionOutput
import proofs.«178701_j38817914421629_1_alg».proof.Proof.RefLayers
import Idealize.ShloMosaic.Lib.StableHlo.Run

set_option maxRecDepth 16384

noncomputable section

namespace Cert.Sage

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The reshaped bias rows, entry by entry -/

/-- Entry (0, q) of a length-128 vector reshaped to a 1 × 128 row is its entry q. -/
theorem biasRowHid (b : FVec Ideal S128 .f32) (q : Fin 128) :
    (shapeCast S1x128 b shapeCasts_S128_S1x128 : Vec Ideal S1x128 .f32) (biasHidAt q) = b (vec128At q) := by
  refine shapeCast_apply b shapeCasts_S128_S1x128 (biasHidAt q) (vec128At q) ?_
  rw [Shape.rowMajor_val_one, Shape.rowMajor_val_two]
  show q.val = 0 * 128 + q.val
  omega

/-- Entry (0, q) of a length-64 vector reshaped to a 1 × 64 row is its entry q. -/
theorem biasRowOut (b : FVec Ideal S64 .f32) (q : Fin 64) :
    (shapeCast S1x64 b shapeCasts_S64_S1x64 : Vec Ideal S1x64 .f32) (biasOutAt q) = b (vec64At q) := by
  refine shapeCast_apply b shapeCasts_S64_S1x64 (biasOutAt q) (vec64At q) ?_
  rw [Shape.rowMajor_val_one, Shape.rowMajor_val_two]
  show q.val = 0 * 64 + q.val
  omega

/-! ## What the hidden layer's call finds -/

theorem agg_at_hidden (c : Dev nD) :
    V1 m ρ c main_v22 = neighbourMean (m ((c : Thread nD τ).loc main_arg0)) (m ((c : Thread nD τ).loc main_arg1)) := by
  show StableHlo.after hostOps0 (W0 m ρ c) (Proc.devRef .tc main_v22) = _
  after_results_simp
  rfl

theorem feat_at_hidden (c : Dev nD) : V1 m ρ c main_arg0 = (m ((c : Thread nD τ).loc main_arg0)) := by
  show StableHlo.after hostOps0 (W0 m ρ c) (Proc.devRef .tc main_arg0) = _
  after_results_simp <;> rfl

theorem wl_at_hidden (c : Dev nD) : V1 m ρ c main_arg2 = (m ((c : Thread nD τ).loc main_arg2)) := by
  show StableHlo.after hostOps0 (W0 m ρ c) (Proc.devRef .tc main_arg2) = _
  after_results_simp <;> rfl

theorem wr_at_hidden (c : Dev nD) : V1 m ρ c main_arg4 = (m ((c : Thread nD τ).loc main_arg4)) := by
  show StableHlo.after hostOps0 (W0 m ρ c) (Proc.devRef .tc main_arg4) = _
  after_results_simp <;> rfl

theorem bias_at_hidden (c : Dev nD) :
    V1 m ρ c main_v23 = shapeCast S1x128 (m ((c : Thread nD τ).loc main_arg3)) shapeCasts_S128_S1x128 := by
  show StableHlo.after hostOps0 (W0 m ρ c) (Proc.devRef .tc main_v23) = _
  after_results_simp <;> rfl

/-- The hidden features after the first call: the hidden layer over the neighbour mean of the input features. -/
theorem hidden_after_call (c : Dev nD) :
    W2 m ρ c (Proc.devRef .tc main_v24)
      = hidden (neighbourMean (m ((c : Thread nD τ).loc main_arg0)) (m ((c : Thread nD τ).loc main_arg1))) (m ((c : Thread nD τ).loc main_arg0)) (m ((c : Thread nD τ).loc main_arg2)) (m ((c : Thread nD τ).loc main_arg4))
          (fun q => (m ((c : Thread nD τ).loc main_arg3)) (vec128At q)) := by
  refine ((W2_arr m ρ c 5).trans (finalHid (V1 m ρ) c)).trans ?_
  show hidden (V1 m ρ c main_v22) (V1 m ρ c main_arg0) (V1 m ρ c main_arg2) (V1 m ρ c main_arg4)
      (fun q => (V1 m ρ c main_v23 : Vec Ideal S1x128 .f32) (biasHidAt q)) = _
  rw [agg_at_hidden, feat_at_hidden, wl_at_hidden, wr_at_hidden, bias_at_hidden]
  exact congrArg (hidden _ _ _ _) (funext fun q => biasRowHid _ q)

/-! ## What the output layer's call finds -/

/-- The source-row list the first stretch extracted from the edge list is still there after the first call. -/
theorem src_after_call (c : Dev nD) :
    W2 m ρ c (Proc.devRef .tc main_v1) = Cert.ReferenceIdeal.Read.val_main_v1 (F := Ideal) (m ((c : Thread nD τ).loc main_arg1)) := by
  rw [W2_of_ne m ρ c main_v1 (by decide)]
  show StableHlo.after hostOps0 (W0 m ρ c) (Proc.devRef .tc main_v1) = _
  after_results_simp <;> rfl

/-- So is the destination-row list. -/
theorem dst_after_call (c : Dev nD) :
    W2 m ρ c (Proc.devRef .tc main_v3) = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  after_results_simp <;> rfl

theorem agg_at_output (c : Dev nD) :
    V3 m ρ c main_v43 = neighbourMean (W2 m ρ c (Proc.devRef .tc main_v24)) (m ((c : Thread nD τ).loc main_arg1)) := by
  show StableHlo.after hostOps1 (W2 m ρ c) (Proc.devRef .tc main_v43) = _
  after_results_simp
  rw [src_after_call, dst_after_call]
  rfl

theorem feat_at_output (c : Dev nD) : V3 m ρ c main_v24 = W2 m ρ c (Proc.devRef .tc main_v24) := by
  show StableHlo.after hostOps1 (W2 m ρ c) (Proc.devRef .tc main_v24) = _
  after_results_simp

theorem wl_at_output (c : Dev nD) : V3 m ρ c main_arg5 = (m ((c : Thread nD τ).loc main_arg5)) :=
  ((W4_arr m ρ c 2).trans (((dat1 (V3 m ρ) c).arrAt_in 2 rfl _).trans (A_eq1 (V3 m ρ) c 2))).symm.trans (W4_main_arg5 m ρ c)

theorem wr_at_output (c : Dev nD) : V3 m ρ c main_arg7 = (m ((c : Thread nD τ).loc main_arg7)) :=
  ((W4_arr m ρ c 4).trans (((dat1 (V3 m ρ) c).arrAt_in 4 rfl _).trans (A_eq1 (V3 m ρ) c 4))).symm.trans (W4_main_arg7 m ρ c)

theorem bias_at_output (c : Dev nD) :
    V3 m ρ c main_v44 = shapeCast S1x64 (m ((c : Thread nD τ).loc main_arg6)) shapeCasts_S64_S1x64 := by
  show StableHlo.after hostOps1 (W2 m ρ c) (Proc.devRef .tc main_v44) = _
  after_results_simp
  rw [W2_of_ne m ρ c main_arg6 (by decide)]
  show shapeCast S1x64 (StableHlo.after hostOps0 (W0 m ρ c) (Proc.devRef .tc main_arg6)) _ = _
  after_results_simp <;> rfl

/-! ## The result -/

/-- The result array after the second call is the network of the arguments. -/
theorem result_network (c : Dev nD) :
    W4 m ρ c (Proc.devRef .tc main_v45)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 5).trans (finalOut (V3 m ρ) c)).trans ?_
  show output (V3 m ρ c main_v43) (V3 m ρ c main_v24) (V3 m ρ c main_arg5) (V3 m ρ c main_arg7)
      (fun q => (V3 m ρ c main_v44 : Vec Ideal S1x64 .f32) (biasOutAt q)) = _
  rw [agg_at_output, feat_at_output, wl_at_output, wr_at_output, bias_at_output, hidden_after_call]
  exact congrArg (output _ _ _ _) (funext fun q => biasRowOut _ q)

end Cert.Sage

end
-- ==== Proof.lean ====
/-
  A two-layer GraphSAGE network, kernel against reference, over the extended reals.

  Both programs compute, from node features x, an edge list e, and the layers' weights and biases,
      h   = max (mean_e(x) · W1l + b1 + x · W1r) 0          (hidden layer, 128 features)
      out =      mean_e(h) · W2l + b2 + h · W2r             (output layer, 64 features)
  where mean_e takes, for every node, the mean of its in-neighbours' rows. Both programs form mean_e by the same host
  operations (a gather along the edges, a sum into the destination rows, a division by the larger of the in-degree
  and one), so it is carried as one function and never opened. They differ in the dense part: the reference takes
  whole-array matrix products; the kernel tiles the 100000 nodes into 25 blocks of 4000 rows, narrows the operands of
  each product to bfloat16 (the identity on extended reals), multiplies into a zero accumulator and adds the bias
  row repeated down the block. Entry by entry both are the same sums over the 128 input features, added in the
  same order, so the two results agree without any use of finiteness. The kernel's idealization rewrote nothing,
  so the preservation claim is empty; the three frames are the generated runs.
-/
import proofs.«178701_j38817914421629_1_alg».proof.Defs
import proofs.«178701_j38817914421629_1_alg».proof.Proof.Gen.Kernel
import proofs.«178701_j38817914421629_1_alg».proof.Proof.Gen.Kernel.Skeleton
import proofs.«178701_j38817914421629_1_alg».proof.Proof.Gen.Kernel.Launch
import proofs.«178701_j38817914421629_1_alg».proof.Proof.Gen.Kernel.Points
import proofs.«178701_j38817914421629_1_alg».proof.Proof.Gen.Kernel.Frame
import proofs.«178701_j38817914421629_1_alg».proof.Proof.Gen.KernelIdeal
import proofs.«178701_j38817914421629_1_alg».proof.Proof.Gen.KernelIdeal.Skeleton
import proofs.«178701_j38817914421629_1_alg».proof.Proof.Gen.KernelIdeal.Launch
import proofs.«178701_j38817914421629_1_alg».proof.Proof.Gen.KernelIdeal.Points
import proofs.«178701_j38817914421629_1_alg».proof.Proof.Gen.KernelIdeal.Frame
import proofs.«178701_j38817914421629_1_alg».proof.Proof.Gen.ReferenceIdeal
import proofs.«178701_j38817914421629_1_alg».proof.Proof.Gen.Pre_finite_inputs
import proofs.«178701_j38817914421629_1_alg».proof.Proof.Gen.ReferenceIdeal.Run
import proofs.«178701_j38817914421629_1_alg».proof.Proof.Gen.ReferenceIdeal.Read
import proofs.«178701_j38817914421629_1_alg».proof.Proof.KernelIdealRun
import proofs.«178701_j38817914421629_1_alg».proof.Proof.KernelNetwork
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the network of the arguments in their
    result arrays: the kernel by its two calls over the two host stretches, the reference stage by stage. -/
theorem algebraic : Cert.algebraic_KernelIdeal_ReferenceIdeal := by
  intro m ρ m' ρ' _ hagree
  refine ⟨fun c => Cert.Sage.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Sage.result_network m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v54_eq, Cert.Sage.reference_network, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
